-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x16x16x16 : Shape := ⟨4, ![8192, 16, 16, 16]⟩
abbrev S84x256x32 : Shape := ⟨3, ![84, 256, 32]⟩
abbrev S84 : Shape := ⟨1, ![84]⟩
abbrev S84x1x1 : Shape := ⟨3, ![84, 1, 1]⟩
abbrev S_ : Shape := ⟨0, ![]⟩

class Facts : Prop where
  bcast_S84_S84x1x1_0 : S84.BroadcastsInDim S84x1x1 (![0] : Fin 1 → Fin S84x1x1.rank)
  bcast_S_S8192x16x16x16 : S_.BroadcastsInDim S8192x16x16x16 (![] : Fin 0 → Fin S8192x16x16x16.rank)
  reducesTo_S8192x16x16x16_S_d0_1_2_3 : S8192x16x16x16.ReducesTo [0, 1, 2, 3] S_
  h_S_ : 0 < S_.numel
  bcast_S_S84x256x32 : S_.BroadcastsInDim S84x256x32 (![] : Fin 0 → Fin S84x256x32.rank)
  reducesTo_S84x256x32_S_d0_1_2 : S84x256x32.ReducesTo [0, 1, 2] S_
  bcast_S_S8192 : S_.BroadcastsInDim S8192 (![] : Fin 0 → Fin S8192.rank)
  reducesTo_S8192_S_d0 : S8192.ReducesTo [0] S_
  bcast_S84x1x1_S84x256x32_0_1_2 : S84x1x1.BroadcastsInDim S84x256x32 (![0, 1, 2] : Fin 3 → Fin S84x256x32.rank)

variable [Facts]

abbrev lit0 : Fin 84 → BitVec 1 := fun
  | 0 => 0#1 | 1 => 1#1 | 2 => 0#1 | 3 => 0#1 | 4 => 0#1 | 5 => 0#1 | 6 => 1#1 | 7 => 1#1
  | 8 => 1#1 | 9 => 1#1 | 10 => 0#1 | 11 => 0#1 | 12 => 0#1 | 13 => 0#1 | 14 => 0#1 | 15 => 0#1
  | 16 => 0#1 | 17 => 0#1 | 18 => 0#1 | 19 => 0#1 | 20 => 0#1 | 21 => 0#1 | 22 => 0#1 | 23 => 0#1
  | 24 => 0#1 | 25 => 0#1 | 26 => 0#1 | 27 => 0#1 | 28 => 0#1 | 29 => 0#1 | 30 => 0#1 | 31 => 0#1
  | 32 => 0#1 | 33 => 0#1 | 34 => 0#1 | 35 => 0#1 | 36 => 0#1 | 37 => 0#1 | 38 => 0#1 | 39 => 0#1
  | 40 => 0#1 | 41 => 0#1 | 42 => 0#1 | 43 => 0#1 | 44 => 0#1 | 45 => 0#1 | 46 => 0#1 | 47 => 0#1
  | 48 => 0#1 | 49 => 0#1 | 50 => 0#1 | 51 => 0#1 | 52 => 0#1 | 53 => 0#1 | 54 => 0#1 | 55 => 0#1
  | 56 => 0#1 | 57 => 0#1 | 58 => 0#1 | 59 => 0#1 | 60 => 0#1 | 61 => 0#1 | 62 => 0#1 | 63 => 0#1
  | 64 => 0#1 | 65 => 0#1 | 66 => 0#1 | 67 => 0#1 | 68 => 0#1 | 69 => 0#1 | 70 => 0#1 | 71 => 0#1
  | 72 => 0#1 | 73 => 0#1 | 74 => 0#1 | 75 => 0#1 | 76 => 0#1 | 77 => 0#1 | 78 => 0#1 | 79 => 0#1
  | 80 => 0#1 | 81 => 0#1 | 82 => 0#1 | 83 => 0#1
  | _ => 0#1

def fn_part1 {F : FTy → Type} [FloatOps F] (main_v0 : IVec S84x1x1 1) (main_v13 : IVec S_ 1) (main_v15 : IVec S84x256x32 1) : IVec S_ 1 :=
  let main_v16 : IVec S84x256x32 1 := broadcastInDim S84x256x32 ![0, 1, 2] bcast_S84x1x1_S84x256x32_0_1_2 main_v0
  let main_v17 : IVec S84x256x32 1 := ori main_v16 main_v15
  let main_c_6 : IVec S_ 1 := constantI S_ 1 1#1
  let main_v18 : IVec S_ 1 := (fun x v => Host.reduce IntOp.andi x v reducesTo_S84x256x32_S_d0_1_2 h_S_) main_v17 main_c_6
  let main_v19 : IVec S_ 1 := andi main_v13 main_v18
  main_v19

def fn {F : FTy → Type} [FloatOps F] (main_arg0 : IVec S8192 32) (main_arg1 : FVec F S8192x16x16x16 .f32) (main_arg2 : FVec F S84x256x32 .f32) : IVec S_ 1 :=
  let main_c : IVec S84 1 := fun i => lit0 (S84.rowMajor i)
  let main_v0 : IVec S84x1x1 1 := broadcastInDim S84x1x1 ![0] bcast_S84_S84x1x1_0 main_c
  let main_v1 : FVec F S8192x16x16x16 .f32 := Host.absf main_arg1
  let main_cst : FVec F S_ .f32 := constant S_ .f32 0x7F800000#32
  let main_v2 : FVec F S8192x16x16x16 .f32 := broadcastInDim S8192x16x16x16 ![] bcast_S_S8192x16x16x16 main_cst
  let main_v3 : IVec S8192x16x16x16 1 := cmpf .olt main_v1 main_v2
  let main_c_0 : IVec S_ 1 := constantI S_ 1 1#1
  let main_v4 : IVec S_ 1 := (fun x v => Host.reduce IntOp.andi x v reducesTo_S8192x16x16x16_S_d0_1_2_3 h_S_) main_v3 main_c_0
  let main_v5 : FVec F S84x256x32 .f32 := Host.absf main_arg2
  let main_cst_1 : FVec F S_ .f32 := constant S_ .f32 0x7F800000#32
  let main_v6 : FVec F S84x256x32 .f32 := broadcastInDim S84x256x32 ![] bcast_S_S84x256x32 main_cst_1
  let main_v7 : IVec S84x256x32 1 := cmpf .olt main_v5 main_v6
  let main_c_2 : IVec S_ 1 := constantI S_ 1 1#1
  let main_v8 : IVec S_ 1 := (fun x v => Host.reduce IntOp.andi x v reducesTo_S84x256x32_S_d0_1_2 h_S_) main_v7 main_c_2
  let main_v9 : IVec S_ 1 := andi main_v4 main_v8
  let main_c_3 : IVec S_ 32 := constantI S_ 32 0#32
  let main_v10 : IVec S8192 32 := broadcastInDim S8192 ![] bcast_S_S8192 main_c_3
  let main_v11 : IVec S8192 1 := cmpi .sge main_arg0 main_v10
  let main_c_4 : IVec S_ 1 := constantI S_ 1 1#1
  let main_v12 : IVec S_ 1 := (fun x v => Host.reduce IntOp.andi x v reducesTo_S8192_S_d0 h_S_) main_v11 main_c_4
  let main_v13 : IVec S_ 1 := andi main_v9 main_v12
  let main_cst_5 : FVec F S_ .f32 := constant S_ .f32 0x00000000#32
  let main_v14 : FVec F S84x256x32 .f32 := broadcastInDim S84x256x32 ![] bcast_S_S84x256x32 main_cst_5
  let main_v15 : IVec S84x256x32 1 := cmpf .oeq main_arg2 main_v14
  fn_part1 (F := F) main_v0 main_v13 main_v15
-- ==== Kernel.lean ====
abbrev S8192 : Shape := ⟨1, ![8192]⟩
abbrev S8192x16x16x16 : Shape := ⟨4, ![8192, 16, 16, 16]⟩
abbrev S84x256x32 : Shape := ⟨3, ![84, 256, 32]⟩
abbrev S5 : Shape := ⟨1, ![5]⟩
abbrev S8192x4096 : Shape := ⟨2, ![8192, 4096]⟩
abbrev S8192x1 : Shape := ⟨2, ![8192, 1]⟩
abbrev S1x5 : Shape := ⟨2, ![1, 5]⟩
abbrev S8192x5 : Shape := ⟨2, ![8192, 5]⟩
abbrev S_ : Shape := ⟨0, ![]⟩
abbrev S5x1 : Shape := ⟨2, ![5, 1]⟩
abbrev S5x256x32 : Shape := ⟨3, ![5, 256, 32]⟩
abbrev S256x5x32 : Shape := ⟨3, ![256, 5, 32]⟩
abbrev S256x160 : Shape := ⟨2, ![256, 160]⟩
abbrev S8192x512 : Shape := ⟨2, ![8192, 512]⟩
abbrev S128x4096 : Shape := ⟨2, ![128, 4096]⟩
abbrev S128x5 : Shape := ⟨2, ![128, 5]⟩
abbrev S128x512 : Shape := ⟨2, ![128, 512]⟩
abbrev S128x256x16 : Shape := ⟨3, ![128, 256, 16]⟩
abbrev S128x16x256 : Shape := ⟨3, ![128, 16, 256]⟩
abbrev S2048x256 : Shape := ⟨2, ![2048, 256]⟩
abbrev S2048x160 : Shape := ⟨2, ![2048, 160]⟩
abbrev S128x16x160 : Shape := ⟨3, ![128, 16, 160]⟩
abbrev S128x16x32 : Shape := ⟨3, ![128, 16, 32]⟩
abbrev S128x1 : Shape := ⟨2, ![128, 1]⟩
abbrev S128 : Shape := ⟨1, ![128]⟩
abbrev S128x1x1 : Shape := ⟨3, ![128, 1, 1]⟩
abbrev S128x32x16 : Shape := ⟨3, ![128, 32, 16]⟩
abbrev S8192x32x16 : Shape := ⟨3, ![8192, 32, 16]⟩

abbrev nBuf : Space → Nat
  | .hbm => 25
  | .vmem => 7
  | .smem => 0
  | _ => 0

abbrev bufTy : (tb : Table) → Fin (tcTables nBuf tb) → BufTy
  | .hbm, ⟨0, _⟩ => ⟨S8192, .i32⟩
  | .hbm, ⟨1, _⟩ => ⟨S8192x16x16x16, .f32⟩
  | .hbm, ⟨2, _⟩ => ⟨S84x256x32, .f32⟩
  | .hbm, ⟨3, _⟩ => ⟨S5, .i32⟩
  | .hbm, ⟨4, _⟩ => ⟨S8192x4096, .f32⟩
  | .hbm, ⟨5, _⟩ => ⟨S8192x1, .i32⟩
  | .hbm, ⟨6, _⟩ => ⟨S1x5, .i32⟩
  | .hbm, ⟨7, _⟩ => ⟨S8192x5, .i32⟩
  | .hbm, ⟨8, _⟩ => ⟨S8192x5, .i32⟩
  | .hbm, ⟨9, _⟩ => ⟨S8192x5, .i1⟩
  | .hbm, ⟨10, _⟩ => ⟨S8192x5, .f32⟩
  | .hbm, ⟨11, _⟩ => ⟨S_, .i32⟩
  | .hbm, ⟨12, _⟩ => ⟨S5, .i32⟩
  | .hbm, ⟨13, _⟩ => ⟨S5, .i1⟩
  | .hbm, ⟨14, _⟩ => ⟨S_, .i32⟩
  | .hbm, ⟨15, _⟩ => ⟨S5, .i32⟩
  | .hbm, ⟨16, _⟩ => ⟨S5, .i32⟩
  | .hbm, ⟨17, _⟩ => ⟨S5, .i32⟩
  | .hbm, ⟨18, _⟩ => ⟨S5x1, .i32⟩
  | .hbm, ⟨19, _⟩ => ⟨S5x256x32, .f32⟩
  | .hbm, ⟨20, _⟩ => ⟨S256x5x32, .f32⟩
  | .hbm, ⟨21, _⟩ => ⟨S256x160, .f32⟩
  | .hbm, ⟨22, _⟩ => ⟨S256x160, .bf16⟩
  | .hbm, ⟨23, _⟩ => ⟨S8192x512, .f32⟩
  | .hbm, ⟨24, _⟩ => ⟨S8192x32x16, .f32⟩
  | .local _ .vmem, ⟨0, _⟩ => ⟨S128x4096, .f32⟩
  | .local _ .vmem, ⟨1, _⟩ => ⟨S128x4096, .f32⟩
  | .local _ .vmem, ⟨2, _⟩ => ⟨S128x5, .f32⟩
  | .local _ .vmem, ⟨3, _⟩ => ⟨S128x5, .f32⟩
  | .local _ .vmem, ⟨4, _⟩ => ⟨S256x160, .bf16⟩
  | .local _ .vmem, ⟨5, _⟩ => ⟨S128x512, .f32⟩
  | .local _ .vmem, ⟨6, _⟩ => ⟨S128x512, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x16x16x16_S8192x4096 : S8192x16x16x16.ShapeCasts S8192x4096
  bcast_S8192_S8192x1_0 : S8192.BroadcastsInDim S8192x1 (![0] : Fin 1 → Fin S8192x1.rank)
  bcast_S5_S1x5_1 : S5.BroadcastsInDim S1x5 (![1] : Fin 1 → Fin S1x5.rank)
  bcast_S8192x1_S8192x5_0_1 : S8192x1.BroadcastsInDim S8192x5 (![0, 1] : Fin 2 → Fin S8192x5.rank)
  bcast_S1x5_S8192x5_0_1 : S1x5.BroadcastsInDim S8192x5 (![0, 1] : Fin 2 → Fin S8192x5.rank)
  bcast_S_S5 : S_.BroadcastsInDim S5 (![] : Fin 0 → Fin S5.rank)
  bcast_S5_S5x1_0 : S5.BroadcastsInDim S5x1 (![0] : Fin 1 → Fin S5x1.rank)
  transposes_S5x256x32_S256x5x32_1_0_2 : S5x256x32.Transposes [1, 0, 2] S256x5x32
  shapeCasts_S256x5x32_S256x160 : S256x5x32.ShapeCasts S256x160
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S128x4096_S128x256x16 : S128x4096.ShapeCasts S128x256x16
  transposes_S128x256x16_p0_2_1_S128x16x256 : S128x256x16.Transposes [0, 2, 1] S128x16x256
  shapeCasts_S128x16x256_S2048x256 : S128x16x256.ShapeCasts S2048x256
  inb_S256x160_S256x160_0_0 : ∀ a, (![0, 0] : Fin 2 → Nat) a + S256x160.size a ≤ S256x160.size a
  h_S256x160 : 0 < S256x160.numel
  shapeCasts_S256x160_S256x160 : S256x160.ShapeCasts S256x160
  shapeCasts_S2048x160_S128x16x160 : S2048x160.ShapeCasts S128x16x160
  inb_S128x5_S128x5_0_0 : ∀ a, (![0, 0] : Fin 2 → Nat) a + S128x5.size a ≤ S128x5.size a
  h_S128x5 : 0 < S128x5.numel
  shapeCasts_S128x5_S128x5 : S128x5.ShapeCasts S128x5
  slices_S128x16x160_o0_0_0_S128x16x32 : S128x16x160.Slices ![0, 0, 0] S128x16x32
  slices_S128x5_o0_0_S128x1 : S128x5.Slices ![0, 0] S128x1
  shapeCasts_S128x1_S128 : S128x1.ShapeCasts S128
  shapeCasts_S128_S128x1x1 : S128.ShapeCasts S128x1x1
  broadcasts_S128x1x1_S128x16x32 : S128x1x1.Broadcasts S128x16x32
  slices_S128x16x160_o0_0_32_S128x16x32 : S128x16x160.Slices ![0, 0, 32] S128x16x32
  slices_S128x5_o0_1_S128x1 : S128x5.Slices ![0, 1] S128x1
  slices_S128x16x160_o0_0_64_S128x16x32 : S128x16x160.Slices ![0, 0, 64] S128x16x32
  slices_S128x5_o0_2_S128x1 : S128x5.Slices ![0, 2] S128x1
  slices_S128x16x160_o0_0_96_S128x16x32 : S128x16x160.Slices ![0, 0, 96] S128x16x32
  slices_S128x5_o0_3_S128x1 : S128x5.Slices ![0, 3] S128x1
  slices_S128x16x160_o0_0_128_S128x16x32 : S128x16x160.Slices ![0, 0, 128] S128x16x32
  slices_S128x5_o0_4_S128x1 : S128x5.Slices ![0, 4] S128x1
  transposes_S128x16x32_p0_2_1_S128x32x16 : S128x16x32.Transposes [0, 2, 1] S128x32x16
  shapeCasts_S128x32x16_S128x512 : S128x32x16.ShapeCasts S128x512
  inb_S128x512_S128x512_0_0 : ∀ a, (![0, 0] : Fin 2 → Nat) a + S128x512.size a ≤ S128x512.size a
  h_S128x512 : 0 < S128x512.numel
  shapeCasts_S8192x512_S8192x32x16 : S8192x512.ShapeCasts S8192x32x16
  gather_S84x256x32_S5x1_S5x256x32_12_0_n_n_0_1_125632_wf : GatherDims.WF S84x256x32 S5x1 S5x256x32 [1, 2] [0] [] [0] [] 1 ![1, 256, 32]
  dot_S2048x256_S256x160_S2048x160_1_0_0_1_n_n_wf : DotDims.WF S2048x256 S256x160 S2048x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x5.size a ≤ S8192x5.size a
  hwx0_1 : ∀ i : grid0.Coords, EltTy.bits .f32 = 32 ∨ (Rect.block (s := S8192x5) S128x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x160.size a ≤ S256x160.size a
  hwx0_2 : ∀ i : grid0.Coords, EltTy.bits .bf16 = 32 ∨ (Rect.block (s := S256x160) S256x160.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S8192x512.size a
  hwx0_3 : ∀ i : grid0.Coords, EltTy.bits .f32 = 32 ∨ (Rect.block (s := S8192x512) S128x512.size (cc0_transform_3 i) (hinb0_3 i)).WholeWords (EltTy.packing .f32)

variable [Facts₀]

def gather_S84x256x32_S5x1_S5x256x32_12_0_n_n_0_1_125632 : GatherDims S84x256x32 S5x1 S5x256x32 where
  offsetDims := [1, 2]
  collapsedSliceDims := [0]
  operandBatchingDims := []
  startIndicesBatchingDims := []
  startIndexMap := [0]
  indexVectorDim := 1
  sliceSizes := ![1, 256, 32]
  wf := gather_S84x256x32_S5x1_S5x256x32_12_0_n_n_0_1_125632_wf
def dot_S2048x256_S256x160_S2048x160_1_0_0_1_n_n : DotDims S2048x256 S256x160 S2048x160 where
  lhsContracting := [1]
  rhsContracting := [0]
  lhsNonContracting := [0]
  rhsNonContracting := [1]
  lhsBatch := []
  rhsBatch := []
  wf := dot_S2048x256_S256x160_S2048x160_1_0_0_1_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192 : Shape := ⟨1, ![8192]⟩
abbrev S8192x16x16x16 : Shape := ⟨4, ![8192, 16, 16, 16]⟩
abbrev S84x256x32 : Shape := ⟨3, ![84, 256, 32]⟩
abbrev S8192x256x16 : Shape := ⟨3, ![8192, 256, 16]⟩
abbrev S_ : Shape := ⟨0, ![]⟩
abbrev S8192x1 : Shape := ⟨2, ![8192, 1]⟩
abbrev S8192x256x32 : Shape := ⟨3, ![8192, 256, 32]⟩
abbrev S8192x32x16 : Shape := ⟨3, ![8192, 32, 16]⟩

abbrev nBuf : Space → Nat
  | .hbm => 14
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x16x16x16, .f32⟩
  | .hbm, ⟨2, _⟩ => ⟨S84x256x32, .f32⟩
  | .hbm, ⟨3, _⟩ => ⟨S8192x256x16, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192x256x32, .f32⟩
  | .hbm, ⟨13, _⟩ => ⟨S8192x32x16, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  shapeCasts_S8192x16x16x16_S8192x256x16 : S8192x16x16x16.ShapeCasts S8192x256x16
  bcast_S_S8192 : S_.BroadcastsInDim S8192 (![] : Fin 0 → Fin S8192.rank)
  bcast_S8192_S8192x1_0 : S8192.BroadcastsInDim S8192x1 (![0] : Fin 1 → Fin S8192x1.rank)
  gather_S84x256x32_S8192x1_S8192x256x32_12_0_n_n_0_1_125632_wf : GatherDims.WF S84x256x32 S8192x1 S8192x256x32 [1, 2] [0] [] [0] [] 1 ![1, 256, 32]
  dot_S8192x256x32_S8192x256x16_S8192x32x16_1_1_2_2_0_0_wf : DotDims.WF S8192x256x32 S8192x256x16 S8192x32x16 [1] [1] [2] [2] [0] [0]

variable [Facts₀]

def gather_S84x256x32_S8192x1_S8192x256x32_12_0_n_n_0_1_125632 : GatherDims S84x256x32 S8192x1 S8192x256x32 where
  offsetDims := [1, 2]
  collapsedSliceDims := [0]
  operandBatchingDims := []
  startIndicesBatchingDims := []
  startIndexMap := [0]
  indexVectorDim := 1
  sliceSizes := ![1, 256, 32]
  wf := gather_S84x256x32_S8192x1_S8192x256x32_12_0_n_n_0_1_125632_wf
def dot_S8192x256x32_S8192x256x16_S8192x32x16_1_1_2_2_0_0 : DotDims S8192x256x32 S8192x256x16 S8192x32x16 where
  lhsContracting := [1]
  rhsContracting := [1]
  lhsNonContracting := [2]
  rhsNonContracting := [2]
  lhsBatch := [0]
  rhsBatch := [0]
  wf := dot_S8192x256x32_S8192x256x16_S8192x32x16_1_1_2_2_0_0_wf

class Facts : Prop extends Facts₀ where

variable [Facts]
-- ==== Proof.Spec.lean ====
/-
  The mathematics of the certificate, with no program in sight.

  Inputs: an index word per atom `a : [8192]`, features `feat : [8192, 16, 16, 16]` read as `[8192, 256, 16]`
  (entry `(n, k, c)` with `k = 16·r₁ + r₂`), and a coefficient table `rc : [84, 256, 32]`.

  The reference gathers, for atom `n`, the table row `rowOf (a n)` (a negative word wraps by 84, the result is
  clamped into the table) and contracts it with the atom's features over `k`:
      G n o c = ∑ k, rc[rowOf (a n), k, o] · feat[n, k, c].
  The kernel contracts the features with the five rows of the supported elements 1, 6, 7, 8, 9 and combines the five
  results with the one-hot weights `[a n = cat z]`:
      K n o c = ((((0 + w₀·D₀) + w₁·D₁) + w₂·D₂) + w₃·D₃) + w₄·D₄,   D z = ∑ k, feat[n, k, c] · rc[cat z, k, o].
  The two agree when the words are non-negative and every table row of an unsupported element is zero
  (`K_eq_G`): if `a n` is a supported number exactly one weight is 1, the others 0, and `0 · x = 0`, `0 + x = x` hold
  on all extended reals; otherwise every weight is 0 and the gathered row is a zero row, so both sides are 0. No
  finiteness is needed: only commutativity of the product and the laws of zero are used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The atomic numbers of the five supported elements, in the order of the kernel's one-hot columns. -/
def cat : Fin 5 → BitVec 32 := fun | 0 => 1#32 | 1 => 6#32 | 2 => 7#32 | 3 => 8#32 | 4 => 9#32

/-- A table row that belongs to a supported element. -/
def Supported (r : Fin 84) : Prop := r.val = 1 ∨ r.val = 6 ∨ r.val = 7 ∨ r.val = 8 ∨ r.val = 9

instance (r : Fin 84) : Decidable (Supported r) := by unfold Supported; infer_instance

/-- The table row read for the index word `w`: a negative word wraps around by the table's 84 rows, and the start
    index is then clamped into the table. -/
def rowOf (w : BitVec 32) : Fin 84 :=
  ⟨min (Scalar.select (IntOp.cmpi .slt w 0#32) (IntOp.addi w 84#32) w).toInt.toNat 83, by omega⟩

/-- Feature entry `(n, k, c)` of the `[8192, 256, 16]` reading of the features, `k = 16·r₁ + r₂`. -/
def featAt (feat : (⟨4, ![8192, 16, 16, 16]⟩ : Shape).Idx → EReal) (n : Fin 8192) (k : Fin 256) (c : Fin 16) : EReal :=
  feat (ix4 n ⟨k.val / 16, by omega⟩ ⟨k.val % 16, by omega⟩ c)

/-- The reference's result at `(n, o, c)`. -/
def G (a : (⟨1, ![8192]⟩ : Shape).Idx → BitVec 32) (feat : (⟨4, ![8192, 16, 16, 16]⟩ : Shape).Idx → EReal)
    (rc : (⟨3, ![84, 256, 32]⟩ : Shape).Idx → EReal) (n : Fin 8192) (o : Fin 32) (c : Fin 16) : EReal :=
  ∑ k : Fin 256, rc (ix3 (rowOf (a (ix1 n))) k o) * featAt feat n k c

/-- The kernel's combination of five candidates `d` with five weights `w`, in the order the body adds them. -/
def comb (w d : Fin 5 → EReal) : EReal :=
  ((((0 + w 0 * d 0) + w 1 * d 1) + w 2 * d 2) + w 3 * d 3) + w 4 * d 4

/-- The one-hot weight of atom `n` for candidate `z`: the compare bit read as a number. -/
def oh (a : (⟨1, ![8192]⟩ : Shape).Idx → BitVec 32) (n : Fin 8192) (z : Fin 5) : EReal :=
  (((IntOp.cmpi .eq (a (ix1 n)) (cat z)).toNat : ℝ) : EReal)

/-- Candidate `z` at `(n, o, c)`: the features contracted with the row of supported element `z`. -/
def D (feat : (⟨4, ![8192, 16, 16, 16]⟩ : Shape).Idx → EReal) (rc : (⟨3, ![84, 256, 32]⟩ : Shape).Idx → EReal)
    (n : Fin 8192) (o : Fin 32) (c : Fin 16) (z : Fin 5) : EReal :=
  ∑ k : Fin 256, featAt feat n k c * rc (ix3 (rowOf (cat z)) k o)

/-- The kernel's result at `(n, o, c)`. -/
def K (a : (⟨1, ![8192]⟩ : Shape).Idx → BitVec 32) (feat : (⟨4, ![8192, 16, 16, 16]⟩ : Shape).Idx → EReal)
    (rc : (⟨3, ![84, 256, 32]⟩ : Shape).Idx → EReal) (n : Fin 8192) (o : Fin 32) (c : Fin 16) : EReal :=
  comb (oh a n) (D feat rc n o c)

/-- The supported numbers read the rows they name. -/
theorem rowOf_cat : ∀ z : Fin 5, (rowOf (cat z)).val = (cat z).toNat := by decide

/-- A non-negative word reads the row of its value, clamped to the last row. -/
theorem rowOf_of_nonneg (w : BitVec 32) (h : IntOp.cmpi .sge w 0#32 = 1#1) : (rowOf w).val = min w.toNat 83 := by
  have h1 : BitVec.ofBool ((0#32 : BitVec 32).sle w) = 1#1 := h
  have h2 : (0#32 : BitVec 32).sle w = true := by cases hb : (0#32 : BitVec 32).sle w <;> simp_all
  have h3 : (0 : Int) ≤ w.toInt := by
    have := h2
    rw [BitVec.sle_iff_toInt_le] at this
    simpa using this
  have h4 : w.slt 0#32 = false := by
    rw [Bool.eq_false_iff]
    intro hlt
    rw [BitVec.slt_iff_toInt_lt] at hlt
    have : (0#32 : BitVec 32).toInt = 0 := by decide
    omega
  have h5 : IntOp.cmpi .slt w 0#32 = 0#1 := by
    show BitVec.ofBool (w.slt 0#32) = 0#1
    rw [h4]; rfl
  have h6 : w.toInt.toNat = w.toNat := by
    have hc := BitVec.toInt_eq_toNat_cond w
    have hl := w.isLt
    split at hc <;> omega
  show min (Scalar.select (IntOp.cmpi .slt w 0#32) (IntOp.addi w 84#32) w).toInt.toNat 83 = _
  rw [h5]
  show min (if (0#1 : BitVec 1) = 1 then IntOp.addi w 84#32 else w).toInt.toNat 83 = _
  rw [if_neg (by decide), h6]

/-- Two supported numbers are equal only as the same candidate. -/
theorem oh_cat : ∀ z i : Fin 5, (IntOp.cmpi .eq (cat z) (cat i)).toNat = if z = i then 1 else 0 := by decide

/-- A word that is not the candidate's number has weight zero. -/
theorem cmpi_eq_of_ne {w c : BitVec 32} (h : w ≠ c) : (IntOp.cmpi .eq w c).toNat = 0 := by
  have hb : (w == c) = false := by simpa using h
  show (BitVec.ofBool (w == c)).toNat = 0
  rw [hb]; rfl

/-- The values of the supported numbers. -/
theorem cat_toNat : ∀ z : Fin 5, (cat z).toNat = 1 ∨ (cat z).toNat = 6 ∨ (cat z).toNat = 7 ∨ (cat z).toNat = 8 ∨ (cat z).toNat = 9 := by
  decide

/-- A word whose value is that of a supported number is that number. -/
theorem eq_cat_of_toNat (w : BitVec 32) (h : w.toNat = 1 ∨ w.toNat = 6 ∨ w.toNat = 7 ∨ w.toNat = 8 ∨ w.toNat = 9) :
    ∃ z : Fin 5, w = cat z := by
  rcases h with h | h | h | h | h
  · exact ⟨0, BitVec.eq_of_toNat_eq (by rw [h]; rfl)⟩
  · exact ⟨1, BitVec.eq_of_toNat_eq (by rw [h]; rfl)⟩
  · exact ⟨2, BitVec.eq_of_toNat_eq (by rw [h]; rfl)⟩
  · exact ⟨3, BitVec.eq_of_toNat_eq (by rw [h]; rfl)⟩
  · exact ⟨4, BitVec.eq_of_toNat_eq (by rw [h]; rfl)⟩

/-- THE LAW that joins the two sides. With non-negative index words and zero rows for the unsupported elements the
    kernel's weighted combination of the five candidates is the reference's contraction with the gathered row. -/
theorem K_eq_G (a : (⟨1, ![8192]⟩ : Shape).Idx → BitVec 32) (feat : (⟨4, ![8192, 16, 16, 16]⟩ : Shape).Idx → EReal)
    (rc : (⟨3, ![84, 256, 32]⟩ : Shape).Idx → EReal)
    (h0 : ∀ n : Fin 8192, IntOp.cmpi .sge (a (ix1 n)) 0#32 = 1#1)
    (hz : ∀ (r : Fin 84) (k : Fin 256) (o : Fin 32), ¬ Supported r → rc (ix3 r k o) = 0)
    (n : Fin 8192) (o : Fin 32) (c : Fin 16) : K a feat rc n o c = G a feat rc n o c := by
  unfold K G comb oh D
  generalize hw : a (ix1 n) = w
  have hnn : IntOp.cmpi .sge w 0#32 = 1#1 := hw ▸ h0 n
  have hrow := rowOf_of_nonneg w hnn
  by_cases hc : ∃ z : Fin 5, w = cat z
  · -- the word is a supported number: one weight is 1, the others 0
    obtain ⟨z, rfl⟩ := hc
    simp only [oh_cat]
    have hcomm : ∀ z : Fin 5, (∑ k : Fin 256, featAt feat n k c * rc (ix3 (rowOf (cat z)) k o))
        = ∑ k : Fin 256, rc (ix3 (rowOf (cat z)) k o) * featAt feat n k c :=
      fun z => Finset.sum_congr rfl fun k _ => mul_comm _ _
    fin_cases z <;> simp [hcomm]
  · -- the word is no supported number: every weight is 0, and the gathered row is a zero row
    have hne : ∀ z : Fin 5, w ≠ cat z := fun z e => hc ⟨z, e⟩
    simp only [cmpi_eq_of_ne (hne _)]
    have hns : ¬ Supported (rowOf w) := by
      intro hs
      unfold Supported at hs
      rw [hrow] at hs
      have hl := w.isLt
      exact hc (eq_cat_of_toNat w (by omega))
    have hR : (∑ k : Fin 256, rc (ix3 (rowOf w) k o) * featAt feat n k c) = 0 :=
      Finset.sum_eq_zero fun k _ => by rw [hz _ k o hns, zero_mul]
    rw [hR]
    simp

end Cert.Spec

end
-- ==== Proof.PreFacts.lean ====
/-
  What the precondition says about the inputs, element by element. The printed predicate is the conjunction of four
  all-reductions; the last two say that every index word is non-negative and that every entry of the coefficient
  table lies in the row of a supported element or is zero.
-/
import proofs.«431276_j7043746365490_3_alg».proof.Pre_finite_inputs
import proofs.«431276_j7043746365490_3_alg».proof.Proof.Gen.Pre_finite_inputs
import proofs.«431276_j7043746365490_3_alg».proof.Proof.Spec
import Idealize.ShloMosaic.Lib.ReduceAll
import Idealize.ShloMosaic.Lib.StableHlo.Predicate
import Idealize.ShloMosaic.Lib.Pipeline.Value
import Idealize.ShloMosaic.Lib.ValueIdx
import Idealize.ShloMosaic.PureOps.Ideal.Laws

noncomputable section

namespace Cert.PreFacts

open Cert.Pre_finite_inputs Idealize.ShloMosaic Idealize.ShloMosaic.ValueIdx

/-- The scalar shape has exactly one index. -/
instance : Subsingleton S_.Idx := ⟨fun a b => funext fun d => d.elim0⟩

/-- The mask literal is 0 at every row that is not the row of a supported element. -/
theorem lit0_unsupported : ∀ r : Fin 84, ¬ Cert.Spec.Supported r → lit0 r = 0#1 := by decide

/-- The mask, broadcast `[84] → [84, 1, 1] → [84, 256, 32]`, reads at `(r, k, o)` the literal of row `r`. -/
theorem mask_apply (h1 : S84.BroadcastsInDim S84x1x1 (![0] : Fin 1 → Fin S84x1x1.rank))
    (h2 : S84x1x1.BroadcastsInDim S84x256x32 (![0, 1, 2] : Fin 3 → Fin S84x256x32.rank))
    (r : Fin 84) (k : Fin 256) (o : Fin 32) :
    broadcastInDim S84x256x32 ![0, 1, 2] h2 (broadcastInDim S84x1x1 ![0] h1 fun i => lit0 (S84.rowMajor i)) (ix3 r k o)
      = lit0 r := by
  refine (broadcastInDim_apply _ h2 _ (ix3 r k o) (ix3 r (0 : Fin 1) (0 : Fin 1)) ?_).trans ?_
  · intro b
    match b with
    | ⟨0, _⟩ => rfl
    | ⟨1, _⟩ => rfl
    | ⟨2, _⟩ => rfl
  refine (broadcastInDim_apply _ h1 _ (ix3 r (0 : Fin 1) (0 : Fin 1)) (ix1 r) ?_).trans ?_
  · intro b
    match b with
    | ⟨0, _⟩ => rfl
  exact congrArg lit0 (Fin.ext (Shape.rowMajor_val_one _))

/-- Under the precondition every index word is non-negative as a signed integer. -/
theorem nonneg_of_pre (a : IVec S8192 32) (feat : FVec Ideal S8192x16x16x16 .f32) (rc : FVec Ideal S84x256x32 .f32)
    (h : Cert.Pre_finite_inputs.fn (F := Ideal) a feat rc = fun _ => 1#1) (n : Fin 8192) :
    IntOp.cmpi .sge (a (ix1 n)) 0#32 = 1#1 := by
  -- the predicate is ((P₁ ∧ P₂) ∧ P₃) ∧ P₄ at the one scalar index; P₃ is the all-reduction of `a ≥ 0`
  have h1 := congrFun h ix0
  dsimp only [fn, fn_part1] at h1
  obtain ⟨h2, -⟩ := IntOp.andi_eq_one.1 h1
  obtain ⟨-, h3⟩ := IntOp.andi_eq_one.1 h2
  -- every element of a conjunction that is 1 is 1; the zero splat reads 0 at every index
  exact Host.reduce_andi_all _ _ _ _ _ h3 (ix1 n)

/-- Under the precondition every table row of an unsupported element is zero. -/
theorem zero_row_of_pre (a : IVec S8192 32) (feat : FVec Ideal S8192x16x16x16 .f32) (rc : FVec Ideal S84x256x32 .f32)
    (h : Cert.Pre_finite_inputs.fn (F := Ideal) a feat rc = fun _ => 1#1)
    (r : Fin 84) (k : Fin 256) (o : Fin 32) (hr : ¬ Cert.Spec.Supported r) : rc (ix3 r k o) = 0 := by
  -- P₄ is the all-reduction of `mask ∨ (rc = 0)`; read it at `(r, k, o)`
  have h1 := congrFun h ix0
  dsimp only [fn, fn_part1] at h1
  obtain ⟨-, h2⟩ := IntOp.andi_eq_one.1 h1
  have h3 := Host.reduce_andi_all _ _ _ _ _ h2 (ix3 r k o)
  rcases IntOp.ori_eq_one.1 h3 with h4 | h4
  · -- the mask is 0 at an unsupported row, so this disjunct cannot hold
    rw [mask_apply, lit0_unsupported r hr] at h4
    exact absurd h4 (by decide)
  · -- the comparison bit of `rc (r, k, o)` with the zero splat is 1: the entry is the extended real 0
    have h5 : Ideal.cmp .oeq (rc (ix3 r k o)) (Ideal.ofBits .f32 0x00000000#32) = 1#1 := h4
    rw [Ideal.ofBits_zero_f32] at h5
    exact of_decide_eq_true ((StableHlo.Predicate.ofBool_eq_one_iff _).1 h5)

end Cert.PreFacts

end
-- ==== Proof.LibGatherRows.lean ====
/-
  jnp's `table[idx]` over a rank-3 table, read at an index.

  For a table `x : [N, A, B]` and a vector of `n` row indices, `x[idx]` prints as a `stablehlo.gather` whose start
  indices are the `[n, 1]` column of the indices, with operand axis 0 collapsed and start-indexed, the offset axes
  1 and 2 carrying whole `[A, B]` rows, no batching axes and the index vector on axis 1. Result element `(p, u, v)`
  is the table at `(row, u, v)`, where `row` is the `p`-th start index read as a SIGNED integer and CLAMPED into
  `[0, N − 1]` (StableHLO clamps every start index so that the slice fits): a negative index reads row 0, one past
  the end reads the last row.
-/
import Idealize.ShloMosaic.PureOps.ShapeOps
import Idealize.ShloMosaic.Lib.ValueIdx

namespace Idealize.ShloMosaic.ValueIdx

/-- THE ROW TAKE read at `(p, u, v)`: the table at the `p`-th start index (signed, clamped into the table), at
    `(u, v)`. The five hypotheses are the printed dimension numbers, each by `rfl` at a generated record. -/
theorem gather_rows_apply {α : Type} {N A B n w : Nat}
    (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![n, 1]⟩ w) (p : Fin n) (u : Fin A) (v : Fin B) (hN : 0 < N) :
    Host.gather d x idx (ix3 p u v)
      = x (ix3 ⟨min (idx (ix2 p (0 : Fin 1))).toInt.toNat (N - 1), by omega⟩ u v) := by
  have hob' : ∀ a : Fin 3, a ∉ d.operandBatchingDims := fun a => by rw [hob]; exact List.not_mem_nil
  have hsk : d.sKept = [1, 2] := by
    show Shape.kept _ (d.collapsedSliceDims ++ d.operandBatchingDims) = _
    rw [hcoll, hob]; rfl
  have hbd : d.batchDims = [0] := by
    show Shape.kept _ d.offsetDims = _
    rw [hoff]; rfl
  have hsik : d.siKept = [0] := by
    show (List.finRange 2).filter (fun b : Fin 2 => decide (b.val ≠ d.indexVectorDim)) = _
    rw [hivd]; rfl
  -- an entry of a list that is a known literal, at a known position
  have getOff : ∀ (i : Nat) (H : i < d.offsetDims.length) (k : Nat) (hk : k < 2), i = k →
      d.offsetDims[i]'H = ([1, 2] : List (Fin 3))[k]'hk := by
    intro i H k hk e; subst e; exact List.getElem_of_eq hoff _
  have getBatch : ∀ (i : Nat) (H : i < d.batchDims.length), i = 0 → d.batchDims[i]'H = (0 : Fin 3) := by
    intro i H e; subst e; exact (List.getElem_of_eq hbd _).trans rfl
  unfold Host.gather
  congr 1
  funext a
  apply Fin.ext
  match a with
  | ⟨0, h0⟩ =>
    have hm : (⟨0, h0⟩ : Fin 3) ∈ d.startIndexMap := by rw [hsim]; exact List.mem_singleton.mpr rfl
    have hc : (⟨0, h0⟩ : Fin 3) ∈ d.collapsedSliceDims := by rw [hcoll]; exact List.mem_singleton.mpr rfl
    have hk : (⟨0, h0⟩ : Fin 3) ∉ d.sKept := fun h => ((d.mem_sKept _).mp h).1 hc
    have hsl : d.sliceSizes ⟨0, h0⟩ = 1 := d.slice_collapsed _ hc
    simp only [GatherDims.operandIdx, GatherDims.start, dif_pos hm, GatherDims.batchCoord_eq_zero _ _ _ (hob' _),
      GatherDims.offCoord_eq_zero _ _ _ hk, Nat.add_zero, hsl]
    show min (idx _).toInt.toNat (N - 1) = min (idx (ix2 p (0 : Fin 1))).toInt.toNat (N - 1)
    congr 3
    congr 1
    funext b
    match b with
    | ⟨0, _⟩ =>
      unfold GatherDims.siIdx
      rw [dif_neg (by rw [hivd]; simp)]
      unfold GatherDims.siCoord
      apply Fin.ext
      simp only [Fin.val_cast]
      rw [getBatch _ _ (by rw [hsik]; rfl)]
    | ⟨1, _⟩ =>
      unfold GatherDims.siIdx
      rw [dif_pos (by rw [hivd])]
      apply Fin.ext
      show List.idxOf (⟨0, h0⟩ : Fin 3) d.startIndexMap = 0
      rw [hsim]; rfl
  | ⟨1, h1⟩ =>
    have hm : (⟨1, h1⟩ : Fin 3) ∉ d.startIndexMap := by rw [hsim]; simp [Fin.ext_iff]
    have hk : (⟨1, h1⟩ : Fin 3) ∈ d.sKept := by rw [hsk]; simp [Fin.ext_iff]
    simp only [GatherDims.operandIdx, GatherDims.start, dif_neg hm, GatherDims.batchCoord_eq_zero _ _ _ (hob' _),
      GatherDims.offCoord, dif_pos hk, Nat.zero_add, Nat.add_zero]
    rw [getOff _ _ 0 (by decide) (by rw [hsk]; rfl)]
    rfl
  | ⟨2, h2⟩ =>
    have hm : (⟨2, h2⟩ : Fin 3) ∉ d.startIndexMap := by rw [hsim]; simp [Fin.ext_iff]
    have hk : (⟨2, h2⟩ : Fin 3) ∈ d.sKept := by rw [hsk]; simp [Fin.ext_iff]
    simp only [GatherDims.operandIdx, GatherDims.start, dif_neg hm, GatherDims.batchCoord_eq_zero _ _ _ (hob' _),
      GatherDims.offCoord, dif_pos hk, Nat.zero_add, Nat.add_zero]
    rw [getOff _ _ 1 (by decide) (by rw [hsk]; rfl)]
    rfl

end Idealize.ShloMosaic.ValueIdx
-- ==== Proof.RefValue.lean ====
/-
  The reference's result, index by index. Its `dot_general` contracts, for atom `n`, the gathered table row with the
  atom's features: entry `(n, o, c)` is the sum over `k` of the gathered `[8192, 256, 32]` array at `(n, k, o)` times
  the `[8192, 256, 16]` reading of the features at `(n, k, c)`. The gathered array at `(n, k, o)` is the table at the
  row the `n`-th index word names — a negative word first wrapped by 84 (the `select` of the compare with zero), then
  clamped into the table by the gather itself — and the reshape of the features reads `(n, k / 16, k % 16, c)`.
-/
import proofs.«431276_j7043746365490_3_alg».proof.Proof.Gen.ReferenceIdeal.Read
import proofs.«431276_j7043746365490_3_alg».proof.Proof.Spec
import proofs.«431276_j7043746365490_3_alg».proof.Proof.LibGatherRows

noncomputable section

namespace Cert.ReferenceIdeal.RefValue

open Cert.ReferenceIdeal Cert.ReferenceIdeal.Gen Cert.ReferenceIdeal.Read Idealize.ShloMosaic Idealize.ShloMosaic.ValueIdx

/-- The start-index column at `(n, 0)` is the `n`-th index word with a negative word wrapped by 84. -/
theorem start_apply (a : IVec S8192 32) (n : Fin 8192) :
    val_main_v6 (F := Ideal) a (ix2 n (0 : Fin 1))
      = Scalar.select (IntOp.cmpi .slt (a (ix1 n)) 0#32) (IntOp.addi (a (ix1 n)) 84#32) (a (ix1 n)) := by
  rw [val_main_v6_apply]
  have e : idx_main_v6 (ix2 n (0 : Fin 1)) = ix1 n := funext fun d => by match d with | ⟨0, _⟩ => rfl
  rw [e, val_main_v5_apply, val_main_v2_apply, val_main_v4_apply, val_main_v1_apply, val_main_v3_apply]
  rfl

/-- The reference's result at `(n, o, c)` is the specification's `G`. -/
theorem ref_apply (a : IVec S8192 32) (feat : FVec Ideal S8192x16x16x16 .f32) (rc : FVec Ideal S84x256x32 .f32)
    (n : Fin 8192) (o : Fin 32) (c : Fin 16) :
    val_main_v8 (F := Ideal) a feat rc (ix3 n o c) = Cert.Spec.G a feat rc n o c := by
  rw [val_main_v8_apply]
  unfold Cert.Spec.G
  refine Finset.sum_congr rfl fun k _ => ?_
  have el : lidx_main_v8 (ix3 n o c) k = ix3 n k o := funext fun d => Fin.ext (by
    match d with
    | ⟨0, _⟩ => rfl
    | ⟨1, _⟩ => rfl
    | ⟨2, _⟩ => rfl)
  have er : idx_main_v0 (ridx_main_v8 (ix3 n o c) k) = ix4 n ⟨k.val / 16, by omega⟩ ⟨k.val % 16, by omega⟩ c :=
    funext fun d => Fin.ext (by
      have hn := n.isLt; have hk := k.isLt; have hc := c.isLt
      match d with
      | ⟨0, _⟩ => show ((n.val * 256 + k.val) * 16 + c.val) / 4096 = n.val; omega
      | ⟨1, _⟩ => show ((n.val * 256 + k.val) * 16 + c.val) / 256 % 16 = k.val / 16; omega
      | ⟨2, _⟩ => show ((n.val * 256 + k.val) * 16 + c.val) / 16 % 16 = k.val % 16; omega
      | ⟨3, _⟩ => show ((n.val * 256 + k.val) * 16 + c.val) % 16 = c.val; omega)
  rw [el, val_main_v0_apply, er]
  unfold val_main_v7 Cert.Spec.featAt
  rw [gather_rows_apply _ rfl rfl rfl rfl rfl _ _ n k o (by decide)]
  have erow : (⟨min (val_main_v6 (F := Ideal) a (ix2 n (0 : Fin 1))).toInt.toNat (84 - 1), by omega⟩ : Fin 84)
      = Cert.Spec.rowOf (a (ix1 n)) := Fin.ext (by
    show min (val_main_v6 (F := Ideal) a (ix2 n (0 : Fin 1))).toInt.toNat (84 - 1) = (Cert.Spec.rowOf (a (ix1 n))).val
    rw [start_apply]
    rfl)
  rw [erow]

/-- The reference's whole result array. -/
theorem ref_eq (a : IVec S8192 32) (feat : FVec Ideal S8192x16x16x16 .f32) (rc : FVec Ideal S84x256x32 .f32) :
    val_main_v8 (F := Ideal) a feat rc = fun i => Cert.Spec.G a feat rc (i 0) (i 1) (i 2) := by
  funext i
  obtain ⟨n, o, c, rfl⟩ : ∃ (n : Fin 8192) (o : Fin 32) (c : Fin 16), i = ix3 n o c := ⟨i 0, i 1, i 2, eq_ix3 i⟩
  exact ref_apply a feat rc n o c

end Cert.ReferenceIdeal.RefValue

end
-- ==== Proof.KernelHost.lean ====
/-
  The arrays the kernel's region finds, read at an index. Before the region the program reshapes the features to
  [8192, 4096] (entry `(n, 16·k + c)` is feature `(n, k, c)`), builds the one-hot weights [8192, 5] by comparing each
  index word with the five supported numbers, and gathers the five supported rows of the table, moves the
  contraction axis first and flattens them to [256, 160] (entry `(k, 32·z + o)` is the table at `(row z, k, o)`).
-/
import proofs.«431276_j7043746365490_3_alg».proof.Proof.Gen.KernelIdeal.Frame
import proofs.«431276_j7043746365490_3_alg».proof.Proof.Spec
import proofs.«431276_j7043746365490_3_alg».proof.Proof.LibGatherRows
import Idealize.ShloMosaic.Lib.StableHlo.Run
import Idealize.ShloMosaic.Lib.StableHlo.Predicate
import Idealize.ShloMosaic.Lib.Pipeline.Value
import Idealize.ShloMosaic.Lib.ValueIdx

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The reshaped features, as one term of the argument. -/
theorem v0_eq (c : Dev nD) : (V m c main_v0 : S8192x4096.Idx → EReal)
    = shapeCast S8192x4096 (m ((c : Thread nD τ).loc main_arg1)) shapeCasts_S8192x16x16x16_S8192x4096 := by
  show StableHlo.after hostOps0 (fun b => m (c, b)) (Proc.devRef .tc main_v0) = _
  after_results
  rfl

/-- The reshaped features at `(n, 16·k + c)`: feature `(n, k, c)`. -/
theorem v0_apply (c : Dev nD) (n : Fin 8192) (k : Fin 256) (cc : Fin 16) :
    (V m c main_v0 : S8192x4096.Idx → EReal) (ix2 n ⟨k.val * 16 + cc.val, by omega⟩)
      = Cert.Spec.featAt (m ((c : Thread nD τ).loc main_arg1)) n k cc := by
  rw [v0_eq]
  unfold Cert.Spec.featAt
  refine shapeCast_apply (s := S8192x16x16x16) (t := S8192x4096) _ _ _ _ ?_
  show (S8192x16x16x16.rowMajor (ix4 n ⟨k.val / 16, by omega⟩ ⟨k.val % 16, by omega⟩ cc)).val
    = (S8192x4096.rowMajor (ix2 n ⟨k.val * 16 + cc.val, by omega⟩)).val
  rw [Shape.rowMajor_val_four, Shape.rowMajor_val_two]
  have hn := n.isLt; have hk := k.isLt; have hc := cc.isLt
  show ((n.val * 16 + k.val / 16) * 16 + k.val % 16) * 16 + cc.val = n.val * 4096 + (k.val * 16 + cc.val)
  omega

/-- The five supported numbers as the program's literal table lists them. -/
theorem lit0_eq_cat (z : Fin 5) : lit0 (S5.rowMajor (ix1 z)) = Cert.Spec.cat z := by
  fin_cases z <;> rfl

/-- The one-hot weights, as one term of the argument. -/
theorem v6_eq (c : Dev nD) : (V m c main_v6 : S8192x5.Idx → EReal)
    = uitofp (F := Ideal) .f32 (cmpi .eq
        (broadcastInDim S8192x5 ![0, 1] bcast_S8192x1_S8192x5_0_1
          (broadcastInDim S8192x1 ![0] bcast_S8192_S8192x1_0 (m ((c : Thread nD τ).loc main_arg0))))
        (broadcastInDim S8192x5 ![0, 1] bcast_S1x5_S8192x5_0_1
          (broadcastInDim S1x5 ![1] bcast_S5_S1x5_1 (fun i => lit0 (S5.rowMajor i))))) := by
  show StableHlo.after hostOps0 (fun b => m (c, b)) (Proc.devRef .tc main_v6) = _
  after_results
  rfl

/-- The one-hot weight of atom `n` for candidate `z`: the bit of the compare of the atom's word with the
    candidate's number, as a number. -/
theorem v6_apply (c : Dev nD) (n : Fin 8192) (z : Fin 5) :
    (V m c main_v6 : S8192x5.Idx → EReal) (ix2 n z) = Cert.Spec.oh (m ((c : Thread nD τ).loc main_arg0)) n z := by
  rw [v6_eq]
  unfold Cert.Spec.oh
  have ea : broadcastInDim S8192x5 ![0, 1] bcast_S8192x1_S8192x5_0_1
      (broadcastInDim S8192x1 ![0] bcast_S8192_S8192x1_0 (m ((c : Thread nD τ).loc main_arg0))) (ix2 n z)
      = m ((c : Thread nD τ).loc main_arg0) (ix1 n) := by
    refine (broadcastInDim_apply _ bcast_S8192x1_S8192x5_0_1 _ (ix2 n z) (ix2 n (0 : Fin 1)) (fun a => match a with
      | ⟨0, _⟩ => by show n.val = if (8192 : Nat) = 1 then 0 else n.val; rw [if_neg (by decide)]
      | ⟨1, _⟩ => by show (0 : Nat) = if (1 : Nat) = 1 then 0 else z.val; rw [if_pos rfl])).trans ?_
    exact broadcastInDim_apply _ bcast_S8192_S8192x1_0 _ (ix2 n (0 : Fin 1)) (ix1 n) (fun a => match a with
      | ⟨0, _⟩ => by show n.val = if (8192 : Nat) = 1 then 0 else n.val; rw [if_neg (by decide)])
  have eb : broadcastInDim S8192x5 ![0, 1] bcast_S1x5_S8192x5_0_1
      (broadcastInDim S1x5 ![1] bcast_S5_S1x5_1 (fun i => lit0 (S5.rowMajor i))) (ix2 n z) = Cert.Spec.cat z := by
    refine (broadcastInDim_apply _ bcast_S1x5_S8192x5_0_1 _ (ix2 n z) (ix2 (0 : Fin 1) z) (fun a => match a with
      | ⟨0, _⟩ => by show (0 : Nat) = if (1 : Nat) = 1 then 0 else n.val; rw [if_pos rfl]
      | ⟨1, _⟩ => by show z.val = if (5 : Nat) = 1 then 0 else z.val; rw [if_neg (by decide)])).trans ?_
    refine (broadcastInDim_apply _ bcast_S5_S1x5_1 _ (ix2 (0 : Fin 1) z) (ix1 z) (fun a => match a with
      | ⟨0, _⟩ => by show z.val = if (5 : Nat) = 1 then 0 else z.val; rw [if_neg (by decide)])).trans ?_
    exact lit0_eq_cat z
  show (((IntOp.cmpi .eq _ _).toNat : ℝ) : EReal) = _
  rw [ea, eb]

/-- The flattened supported rows, as one term of the argument. -/
theorem v16_eq (c : Dev nD) : (V m c main_v16 : S256x160.Idx → EReal)
    = truncf (F := Ideal) .bf16 (shapeCast S256x160
        (transpose S256x5x32 [1, 0, 2]
          (Host.gather gather_S84x256x32_S5x1_S5x256x32_12_0_n_n_0_1_125632 (m ((c : Thread nD τ).loc main_arg2))
            (broadcastInDim S5x1 ![0] bcast_S5_S5x1_0
              (select
                (cmpi .slt (fun i => lit0 (S5.rowMajor i)) (broadcastInDim S5 ![] bcast_S_S5 (constantI S_ 32 0#32)))
                (addi (fun i => lit0 (S5.rowMajor i)) (broadcastInDim S5 ![] bcast_S_S5 (constantI S_ 32 84#32)))
                (fun i => lit0 (S5.rowMajor i)))))
          transposes_S5x256x32_S256x5x32_1_0_2)
        shapeCasts_S256x5x32_S256x160) bitsLt_bf16_f32 := by
  show StableHlo.after hostOps0 (fun b => m (c, b)) (Proc.devRef .tc main_v16) = _
  after_results
  rfl

/-- The flattened supported rows at `(k, 32·z + o)`: the table at the row of supported element `z`, at `(k, o)`. -/
theorem v16_apply (c : Dev nD) (k : Fin 256) (z : Fin 5) (o : Fin 32) :
    (V m c main_v16 : S256x160.Idx → EReal) (ix2 k ⟨z.val * 32 + o.val, by omega⟩)
      = m ((c : Thread nD τ).loc main_arg2) (ix3 (Cert.Spec.rowOf (Cert.Spec.cat z)) k o) := by
  rw [v16_eq]
  refine (truncf_apply (ψ := .bf16) _ bitsLt_bf16_f32 _).trans ?_
  refine (shapeCast_apply _ shapeCasts_S256x5x32_S256x160 _ (ix3 k z o) (by
    rw [Shape.rowMajor_val_three, Shape.rowMajor_val_two]
    show (k.val * 5 + z.val) * 32 + o.val = k.val * 160 + (z.val * 32 + o.val)
    omega)).trans ?_
  refine (transpose_apply [1, 0, 2] _ transposes_S5x256x32_S256x5x32_1_0_2 (ix3 k z o) (ix3 z k o) (fun b => match b with
    | ⟨0, _⟩ => rfl
    | ⟨1, _⟩ => rfl
    | ⟨2, _⟩ => rfl)).trans ?_
  rw [gather_rows_apply _ rfl rfl rfl rfl rfl _ _ z k o (by decide)]
  refine congrArg (m ((c : Thread nD τ).loc main_arg2)) ?_
  have erow : ∀ z : Fin 5, (⟨min ((broadcastInDim S5x1 ![0] bcast_S5_S5x1_0
      (select
        (cmpi .slt (fun i => lit0 (S5.rowMajor i)) (broadcastInDim S5 ![] bcast_S_S5 (constantI S_ 32 0#32)))
        (addi (fun i => lit0 (S5.rowMajor i)) (broadcastInDim S5 ![] bcast_S_S5 (constantI S_ 32 84#32)))
        (fun i => lit0 (S5.rowMajor i)))) (ix2 z (0 : Fin 1))).toInt.toNat (84 - 1), by omega⟩ : Fin 84)
      = Cert.Spec.rowOf (Cert.Spec.cat z) := by
    intro z
    apply Fin.ext
    fin_cases z <;> rfl
  rw [erow z]

end Cert.KernelIdeal.HostValue

end
-- ==== Proof.Payload.lean ====
/-
  The body's arithmetic at an index. The body casts the [128, 4096] feature block to [128, 256, 16], moves the
  contraction axis last ([128, 16, 256]), flattens to [2048, 256] and multiplies by the [256, 160] weight block; row
  `16·p + c` and column `32·z + o` of the product is the contraction over `k` of feature `(p, 16·k + c)` with weight
  `(k, 32·z + o)`. The five column groups `z` are weighted by the one-hot block's five columns, added in order onto a
  zero accumulator, and the `(p, c, o)` result is stored at `(p, 16·o + c)`.
-/
import proofs.«431276_j7043746365490_3_alg».proof.Proof.Gen.KernelIdeal.Skeleton
import proofs.«431276_j7043746365490_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The flattened, transposed feature block: row `16·p + c`, column `k` is feature `(p, 16·k + c)`. -/
theorem lhs_apply (y : FVec Ideal S128x4096 .bf16) (p : Fin 128) (c : Fin 16) (k : Fin 256) :
    shapeCast S2048x256 (transpose S128x16x256 [0, 2, 1] (shapeCast S128x256x16 y shapeCasts_S128x4096_S128x256x16)
        transposes_S128x256x16_p0_2_1_S128x16x256) shapeCasts_S128x16x256_S2048x256
      (ix2 (⟨p.val * 16 + c.val, by omega⟩ : Fin 2048) k)
      = y (ix2 p (⟨k.val * 16 + c.val, by omega⟩ : Fin 4096)) := by
  refine (shapeCast_apply _ _ _ (ix3 p c k) ?_).trans ?_
  · rw [Shape.rowMajor_val_three, Shape.rowMajor_val_two]
    rfl
  refine (transpose_apply _ _ _ _ (ix3 p k c) ?_).trans ?_
  · intro b
    match b with
    | ⟨0, _⟩ => rfl
    | ⟨1, _⟩ => rfl
    | ⟨2, _⟩ => rfl
  refine shapeCast_apply _ _ _ _ ?_
  rw [Shape.rowMajor_val_three, Shape.rowMajor_val_two]
  show p.val * 4096 + (k.val * 16 + c.val) = (p.val * 256 + k.val) * 16 + c.val
  omega

/-- The left operand's row is the output's row. -/
theorem lhs_dot_0 (i : S2048x160.Idx) (q : dot_S2048x256_S256x160_S2048x160_1_0_0_1_n_n.contr.Idx) :
    (dot_S2048x256_S256x160_S2048x160_1_0_0_1_n_n.lhsIdx i q 0).val = (i 0).val := by
  unfold DotDims.lhsIdx
  rw [dif_neg (show ¬(0 : Fin S2048x256.rank) ∈ dot_S2048x256_S256x160_S2048x160_1_0_0_1_n_n.lhsBatch by decide),
    dif_pos (show (0 : Fin S2048x256.rank) ∈ dot_S2048x256_S256x160_S2048x160_1_0_0_1_n_n.lhsNonContracting by decide)]
  rfl

/-- The left operand's column is the contraction position. -/
theorem lhs_dot_1 (i : S2048x160.Idx) (q : dot_S2048x256_S256x160_S2048x160_1_0_0_1_n_n.contr.Idx) :
    (dot_S2048x256_S256x160_S2048x160_1_0_0_1_n_n.lhsIdx i q 1).val = (q ⟨0, by decide⟩).val :=
  dot_S2048x256_S256x160_S2048x160_1_0_0_1_n_n.lhsIdx_val_of_single rfl i q

/-- The right operand's row is the contraction position. -/
theorem rhs_dot_0 (i : S2048x160.Idx) (q : dot_S2048x256_S256x160_S2048x160_1_0_0_1_n_n.contr.Idx) :
    (dot_S2048x256_S256x160_S2048x160_1_0_0_1_n_n.rhsIdx i q 0).val = (q ⟨0, by decide⟩).val :=
  dot_S2048x256_S256x160_S2048x160_1_0_0_1_n_n.rhsIdx_val_of_single rfl i q

/-- The right operand's column is the output's column. -/
theorem rhs_dot_1 (i : S2048x160.Idx) (q : dot_S2048x256_S256x160_S2048x160_1_0_0_1_n_n.contr.Idx) :
    (dot_S2048x256_S256x160_S2048x160_1_0_0_1_n_n.rhsIdx i q 1).val = (i 1).val := by
  unfold DotDims.rhsIdx
  rw [dif_neg (show ¬(1 : Fin S256x160.rank) ∈ dot_S2048x256_S256x160_S2048x160_1_0_0_1_n_n.rhsBatch by decide),
    dif_pos (show (1 : Fin S256x160.rank) ∈ dot_S2048x256_S256x160_S2048x160_1_0_0_1_n_n.rhsNonContracting by decide)]
  rfl

/-- The product into the zero accumulator, at row `r` and column `j`: the contraction over the 256 shared positions. -/
theorem mm_apply (A : FVec Ideal S2048x256 .bf16) (B : FVec Ideal S256x160 .bf16) (r : Fin 2048) (j : Fin 160) :
    matmul dot_S2048x256_S256x160_S2048x160_1_0_0_1_n_n none A B (constant (F := Ideal) S2048x160 .f32 0x00000000#32) (ix2 r j)
      = ∑ k : Fin 256, A (ix2 r k) * B (ix2 k j) := by
  refine (Ideal.matmul_constant_zero_apply dot_S2048x256_S256x160_S2048x160_1_0_0_1_n_n none A B _).trans ?_
  rw [← Equiv.sum_comp (ValueIdx.contrEquiv1 dot_S2048x256_S256x160_S2048x160_1_0_0_1_n_n 256 rfl rfl).symm]
  refine Finset.sum_congr rfl fun k _ => ?_
  have hk := ValueIdx.contrEquiv1_symm_val dot_S2048x256_S256x160_S2048x160_1_0_0_1_n_n 256 rfl rfl k
  have el : dot_S2048x256_S256x160_S2048x160_1_0_0_1_n_n.lhsIdx (ix2 r j)
      ((ValueIdx.contrEquiv1 dot_S2048x256_S256x160_S2048x160_1_0_0_1_n_n 256 rfl rfl).symm k) = ix2 r k :=
    funext fun a => Fin.ext (by
      match a with
      | ⟨0, _⟩ => exact lhs_dot_0 _ _
      | ⟨1, _⟩ => exact (lhs_dot_1 _ _).trans hk)
  have er : dot_S2048x256_S256x160_S2048x160_1_0_0_1_n_n.rhsIdx (ix2 r j)
      ((ValueIdx.contrEquiv1 dot_S2048x256_S256x160_S2048x160_1_0_0_1_n_n 256 rfl rfl).symm k) = ix2 k j :=
    funext fun a => Fin.ext (by
      match a with
      | ⟨0, _⟩ => exact (rhs_dot_0 _ _).trans hk
      | ⟨1, _⟩ => exact rhs_dot_1 _ _)
  rw [el, er]

/-- The product regrouped as `[128, 16, 160]`, from the feature block and the weight block. -/
def prod (x0 : FVec Ideal S128x4096 .f32) (x2 : FVec Ideal S256x160 .bf16) : FVec Ideal S128x16x160 .f32 :=
  shapeCast S128x16x160
    (matmul dot_S2048x256_S256x160_S2048x160_1_0_0_1_n_n none
      (shapeCast S2048x256 (transpose S128x16x256 [0, 2, 1]
        (shapeCast S128x256x16 (truncf .bf16 (shapeCast S128x4096 x0 shapeCasts_S128x4096_S128x4096) bitsLt_bf16_f32)
          shapeCasts_S128x4096_S128x256x16)
        transposes_S128x256x16_p0_2_1_S128x16x256) shapeCasts_S128x16x256_S2048x256)
      (shapeCast S256x160 x2 shapeCasts_S256x160_S256x160)
      (constant (F := Ideal) S2048x160 .f32 0x00000000#32))
    shapeCasts_S2048x160_S128x16x160

/-- Entry `(p, c, j)` of the product: feature row `p`, positions `16·k + c`, against weight column `j`. -/
theorem prod_apply (x0 : FVec Ideal S128x4096 .f32) (x2 : FVec Ideal S256x160 .bf16) (p : Fin 128) (c : Fin 16) (j : Fin 160) :
    prod x0 x2 (ix3 p c j)
      = ∑ k : Fin 256, x0 (ix2 p (⟨k.val * 16 + c.val, by omega⟩ : Fin 4096)) * x2 (ix2 k j) := by
  unfold prod
  refine (shapeCast_apply _ _ _ (ix2 (⟨p.val * 16 + c.val, by omega⟩ : Fin 2048) j) ?_).trans ?_
  · rw [Shape.rowMajor_val_three, Shape.rowMajor_val_two]
    rfl
  refine (mm_apply _ _ _ _).trans ?_
  refine Finset.sum_congr rfl fun k _ => ?_
  rw [lhs_apply, shapeCast_self, shapeCast_self]
  rfl

/-- A unit-stride slice of 32 columns starting at column `n`: entry `(p, c, o)` is entry `(p, c, n + o)`. -/
theorem slice_apply (w : FVec Ideal S128x16x160 .f32) (n : Nat) (h : S128x16x160.Slices ![0, 0, n] S128x16x32)
    (p : Fin 128) (c : Fin 16) (o : Fin 32) (hn : n + o.val < 160) :
    extractStridedSlice S128x16x32 ![0, 0, n] w h (ix3 p c o) = w (ix3 p c (⟨n + o.val, hn⟩ : Fin 160)) := by
  refine extractStridedSlice_apply _ _ _ _ _ ?_
  intro a
  match a with
  | ⟨0, _⟩ => exact (Nat.zero_add _).symm
  | ⟨1, _⟩ => exact (Nat.zero_add _).symm
  | ⟨2, _⟩ => rfl

/-- Column `n` of the one-hot block, spread over the `[128, 16, 32]` block: entry `(p, c, o)` is entry `(p, n)`. -/
theorem weight_apply (w : FVec Ideal S128x5 .f32) (n : Nat) (hn : n < 5) (h : S128x5.Slices ![0, n] S128x1)
    (p : Fin 128) (c : Fin 16) (o : Fin 32) :
    broadcastTo S128x16x32
        (shapeCast S128x1x1 (shapeCast S128 (extractStridedSlice S128x1 ![0, n] w h) shapeCasts_S128x1_S128)
          shapeCasts_S128_S128x1x1)
        broadcasts_S128x1x1_S128x16x32 (ix3 p c o)
      = w (ix2 p (⟨n, hn⟩ : Fin 5)) := by
  refine (broadcastTo_apply _ _ _ (ix3 p (0 : Fin 1) (0 : Fin 1)) ?_).trans ?_
  · intro a
    match a with
    | ⟨0, _⟩ => rfl
    | ⟨1, _⟩ => rfl
    | ⟨2, _⟩ => rfl
  refine (shapeCast_apply _ _ _ (ix1 p) ?_).trans ?_
  · rw [Shape.rowMajor_val_three, Shape.rowMajor_val_one]
    show p.val = (p.val * 1 + 0) * 1 + 0
    omega
  refine (shapeCast_apply _ _ _ (ix2 p (0 : Fin 1)) ?_).trans ?_
  · rw [Shape.rowMajor_val_two, Shape.rowMajor_val_one]
    show p.val * 1 + 0 = p.val
    omega
  refine extractStridedSlice_apply _ _ _ _ _ ?_
  intro a
  match a with
  | ⟨0, _⟩ => exact (Nat.zero_add _).symm
  | ⟨1, _⟩ => rfl

/-- The five column groups of the product, each weighted by its one-hot column, added in order onto the zero block. -/
def acc (v9 : FVec Ideal S128x16x160 .f32) (v11 : FVec Ideal S128x5 .f32) : FVec Ideal S128x16x32 .f32 :=
  addf (addf (addf (addf (addf (broadcast S128x16x32 (Scalar.ofBits (F := Ideal) .f32 0x00000000#32))
    (mulf (broadcastTo S128x16x32
      (shapeCast S128x1x1 (shapeCast S128 (extractStridedSlice S128x1 ![0, 0] v11 slices_S128x5_o0_0_S128x1) shapeCasts_S128x1_S128)
        shapeCasts_S128_S128x1x1)
      broadcasts_S128x1x1_S128x16x32)
      (extractStridedSlice S128x16x32 ![0, 0, 0] v9 slices_S128x16x160_o0_0_0_S128x16x32)))
    (mulf (broadcastTo S128x16x32
      (shapeCast S128x1x1 (shapeCast S128 (extractStridedSlice S128x1 ![0, 1] v11 slices_S128x5_o0_1_S128x1) shapeCasts_S128x1_S128)
        shapeCasts_S128_S128x1x1)
      broadcasts_S128x1x1_S128x16x32)
      (extractStridedSlice S128x16x32 ![0, 0, 32] v9 slices_S128x16x160_o0_0_32_S128x16x32)))
    (mulf (broadcastTo S128x16x32
      (shapeCast S128x1x1 (shapeCast S128 (extractStridedSlice S128x1 ![0, 2] v11 slices_S128x5_o0_2_S128x1) shapeCasts_S128x1_S128)
        shapeCasts_S128_S128x1x1)
      broadcasts_S128x1x1_S128x16x32)
      (extractStridedSlice S128x16x32 ![0, 0, 64] v9 slices_S128x16x160_o0_0_64_S128x16x32)))
    (mulf (broadcastTo S128x16x32
      (shapeCast S128x1x1 (shapeCast S128 (extractStridedSlice S128x1 ![0, 3] v11 slices_S128x5_o0_3_S128x1) shapeCasts_S128x1_S128)
        shapeCasts_S128_S128x1x1)
      broadcasts_S128x1x1_S128x16x32)
      (extractStridedSlice S128x16x32 ![0, 0, 96] v9 slices_S128x16x160_o0_0_96_S128x16x32)))
    (mulf (broadcastTo S128x16x32
      (shapeCast S128x1x1 (shapeCast S128 (extractStridedSlice S128x1 ![0, 4] v11 slices_S128x5_o0_4_S128x1) shapeCasts_S128x1_S128)
        shapeCasts_S128_S128x1x1)
      broadcasts_S128x1x1_S128x16x32)
      (extractStridedSlice S128x16x32 ![0, 0, 128] v9 slices_S128x16x160_o0_0_128_S128x16x32))

/-- Entry `(p, c, o)` of the accumulated block. -/
theorem acc_apply (v9 : FVec Ideal S128x16x160 .f32) (v11 : FVec Ideal S128x5 .f32) (p : Fin 128) (c : Fin 16) (o : Fin 32) :
    acc v9 v11 (ix3 p c o)
      = Cert.Spec.comb (fun z => v11 (ix2 p z)) (fun z => v9 (ix3 p c (⟨z.val * 32 + o.val, by omega⟩ : Fin 160))) := by
  unfold acc Cert.Spec.comb
  rw [addf_apply, addf_apply, addf_apply, addf_apply, addf_apply, mulf_apply, mulf_apply, mulf_apply, mulf_apply, mulf_apply,
    broadcast_apply]
  rw [weight_apply v11 0 (by omega), weight_apply v11 1 (by omega), weight_apply v11 2 (by omega), weight_apply v11 3 (by omega),
    weight_apply v11 4 (by omega)]
  rw [slice_apply v9 0 _ p c o (by omega), slice_apply v9 32 _ p c o (by omega), slice_apply v9 64 _ p c o (by omega),
    slice_apply v9 96 _ p c o (by omega), slice_apply v9 128 _ p c o (by omega)]
  have h0 : (Scalar.ofBits (F := Ideal) .f32 0x00000000#32 : Ideal .f32) = 0 := Ideal.ofBits_zero_f32
  rw [h0]
  rfl

/-- The stored block is the accumulated block with its last two axes exchanged, flattened to `[128, 512]`. -/
theorem pay_eq (x0 : FVec Ideal S128x4096 .f32) (x2 : FVec Ideal S256x160 .bf16) (x1 : FVec Ideal S128x5 .f32) :
    k0_pay1 (F := Ideal) x0 x2 x1
      = shapeCast S128x512
          (transpose S128x32x16 [0, 2, 1] (acc (prod x0 x2) (shapeCast S128x5 x1 shapeCasts_S128x5_S128x5))
            transposes_S128x16x32_p0_2_1_S128x32x16)
          shapeCasts_S128x32x16_S128x512 := rfl

/-- The stored value at row `p`, column `16·o + c`: the five weighted contractions, combined in the body's order. -/
theorem pay_apply (x0 : FVec Ideal S128x4096 .f32) (x2 : FVec Ideal S256x160 .bf16) (x1 : FVec Ideal S128x5 .f32)
    (p : Fin 128) (o : Fin 32) (c : Fin 16) :
    k0_pay1 (F := Ideal) x0 x2 x1 (ix2 p ⟨o.val * 16 + c.val, by omega⟩)
      = Cert.Spec.comb (fun z => x1 (ix2 p z))
          (fun z => ∑ k : Fin 256, x0 (ix2 p ⟨k.val * 16 + c.val, by omega⟩) * x2 (ix2 k ⟨z.val * 32 + o.val, by omega⟩)) := by
  rw [pay_eq]
  refine (shapeCast_apply _ _ _ (ix3 p o c) ?_).trans ?_
  · rw [Shape.rowMajor_val_three, Shape.rowMajor_val_two]
    show (p.val * 32 + o.val) * 16 + c.val = p.val * 512 + (o.val * 16 + c.val)
    omega
  refine (transpose_apply _ _ _ _ (ix3 p c o) ?_).trans ?_
  · intro b
    match b with
    | ⟨0, _⟩ => rfl
    | ⟨1, _⟩ => rfl
    | ⟨2, _⟩ => rfl
  rw [acc_apply, shapeCast_self]
  exact congrArg (Cert.Spec.comb _) (funext fun z => prod_apply x0 x2 p c _)

end Cert.KernelIdeal.Payload

end
-- ==== Proof.KernelValue.lean ====
/-
  What the kernel's program leaves in its result, index by index.

  The grid has 64 points; point `t` works on rows `128·t … 128·t + 127`. Its feature block and one-hot block are
  those rows of the reshaped features and of the one-hot weights, its weight block is the whole [256, 160] array of
  the five supported rows, and what it writes back is rows `128·t …` of the [8192, 512] result. The body's value at
  `(p, 16·o + c)` of its block is therefore the kernel's formula `K` at atom `128·t + p`; the 64 blocks tile the
  result, so the whole [8192, 512] array holds `K` at `(n, q / 16, q % 16)`, and the program's last reshape reads it
  as [8192, 32, 16].
-/
import proofs.«431276_j7043746365490_3_alg».proof.Proof.Gen.KernelIdeal.Frame
import proofs.«431276_j7043746365490_3_alg».proof.Proof.KernelHost
import proofs.«431276_j7043746365490_3_alg».proof.Proof.Payload
import proofs.«431276_j7043746365490_3_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The body's value at `(p, 16·o + c)` of point `t`'s block, given what its three input blocks hold, is the kernel's
    formula at atom `128·t + p`. -/
theorem block_value (a : (⟨1, ![8192]⟩ : Shape).Idx → BitVec 32) (feat : (⟨4, ![8192, 16, 16, 16]⟩ : Shape).Idx → EReal)
    (rc : (⟨3, ![84, 256, 32]⟩ : Shape).Idx → EReal) (t : Nat) (ht : t < 64)
    (x0 : FVec Ideal S128x4096 .f32) (x1 : FVec Ideal S128x5 .f32) (x2 : FVec Ideal S256x160 .bf16)
    (h0 : ∀ (p : Fin 128) (k : Fin 256) (cc : Fin 16),
      x0 (ix2 p ⟨k.val * 16 + cc.val, by omega⟩) = Cert.Spec.featAt feat ⟨t * 128 + p.val, by omega⟩ k cc)
    (h1 : ∀ (p : Fin 128) (z : Fin 5), x1 (ix2 p z) = Cert.Spec.oh a ⟨t * 128 + p.val, by omega⟩ z)
    (h2 : ∀ (k : Fin 256) (z : Fin 5) (o : Fin 32),
      x2 (ix2 k ⟨z.val * 32 + o.val, by omega⟩) = rc (ix3 (Cert.Spec.rowOf (Cert.Spec.cat z)) k o))
    (p : Fin 128) (o : Fin 32) (cc : Fin 16) :
    k0_pay1 (F := Ideal) x0 x2 x1 (ix2 p ⟨o.val * 16 + cc.val, by omega⟩)
      = Cert.Spec.K a feat rc ⟨t * 128 + p.val, by omega⟩ o cc := by
  rw [Payload.pay_apply]
  unfold Cert.Spec.K Cert.Spec.D
  congr 1
  · funext z; exact h1 p z
  · funext z; exact Finset.sum_congr rfl fun k _ => by rw [h0, h2]

theorem hz : (![0, 0] : Fin 2 → Nat) = fun _ => 0 := funext fun a => by fin_cases a <;> rfl

/-- The printed index maps, decided over the grid: the row-blocked windows sit at block row `t`, the weights at
    block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 64 := lt_of_lt_of_eq t.isLt (N_0 : cfg0.N = 64)

/-- Where the blocks sit in their arrays. -/
theorem emb0 (t : Fin cfg0.N) (p : Fin 128) (q : Fin 4096) :
    ((cfg0.win 0).blk t).view.emb (ix2 p q) = (ix2 ⟨t.val * 128 + p.val, by have := t_lt t; omega⟩ q : S8192x4096.Idx) := by
  obtain ⟨e0, e1, -⟩ := idx_facts t
  funext a; apply Fin.ext
  match a with
  | ⟨0, _⟩ => show win0_0.index t (0 : Fin 2) * 128 + 1 * p.val = t.val * 128 + p.val; omega
  | ⟨1, _⟩ => show win0_0.index t (1 : Fin 2) * 4096 + 1 * q.val = q.val; omega
theorem emb1 (t : Fin cfg0.N) (p : Fin 128) (q : Fin 5) :
    ((cfg0.win 1).blk t).view.emb (ix2 p q) = (ix2 ⟨t.val * 128 + p.val, by have := t_lt t; omega⟩ q : S8192x5.Idx) := by
  obtain ⟨-, -, e0, e1, -⟩ := idx_facts t
  funext a; apply Fin.ext
  match a with
  | ⟨0, _⟩ => show win0_1.index t (0 : Fin 2) * 128 + 1 * p.val = t.val * 128 + p.val; omega
  | ⟨1, _⟩ => show win0_1.index t (1 : Fin 2) * 5 + 1 * q.val = q.val; omega
theorem emb2 (t : Fin cfg0.N) (p : Fin 256) (q : Fin 160) :
    ((cfg0.win 2).blk t).view.emb (ix2 p q) = (ix2 p q : S256x160.Idx) := by
  obtain ⟨-, -, -, -, e0, e1, -⟩ := idx_facts t
  funext a; apply Fin.ext
  match a with
  | ⟨0, _⟩ => show win0_2.index t (0 : Fin 2) * 256 + 1 * p.val = p.val; omega
  | ⟨1, _⟩ => show win0_2.index t (1 : Fin 2) * 160 + 1 * q.val = q.val; omega
theorem emb3 (t : Fin cfg0.N) (p : Fin 128) (q : Fin 512) :
    ((cfg0.win 3).blk t).view.emb (ix2 p q) = (ix2 ⟨t.val * 128 + p.val, by have := t_lt t; omega⟩ q : S8192x512.Idx) := by
  obtain ⟨-, -, -, -, -, -, e0, e1⟩ := idx_facts t
  funext a; apply Fin.ext
  match a with
  | ⟨0, _⟩ => show win0_3.index t (0 : Fin 2) * 128 + 1 * p.val = t.val * 128 + p.val; omega
  | ⟨1, _⟩ => show win0_3.index t (1 : Fin 2) * 512 + 1 * q.val = q.val; omega

/-- The pallas_call's [8192, 512] result: entry `(n, q)` is the kernel's formula at `(n, q / 16, q % 16)`. -/
def R2 (c : Dev nD) : S8192x512.Idx → EReal := fun i =>
  Cert.Spec.K (m ((c : Thread nD τ).loc main_arg0)) (m ((c : Thread nD τ).loc main_arg1)) (m ((c : Thread nD τ).loc main_arg2))
    ⟨(i 0).val, idx2_lt0 i⟩ ⟨(i 1).val / 16, by have := idx2_lt1 i; omega⟩ ⟨(i 1).val % 16, by omega⟩

/-- WHAT POINT `t` WRITES BACK is block `t` of `R2`. -/
theorem flushed3_eq (c : Dev nD) (t : Fin cfg0.N) :
    (dats m 0 c).flushed 3 t = ((cfg0.win 3).blk t).view.read (Elt Ideal) (R2 m c) := by
  show (cfg0.win 3).cut (grid0.coords t) ((dats m 0 c).after 3 t) = _
  rw [after0_3]
  unfold out0_3
  rw [View.canon_unit_zero hz]
  simp only [View.ld_unit_zero (S := S128x4096) hz, View.ld_unit_zero (S := S256x160) hz, View.ld_unit_zero (S := S128x5) hz]
  funext j
  obtain ⟨p, q, rfl⟩ : ∃ (p : Fin 128) (q : Fin 512), j = ix2 p q := ⟨j 0, j 1, eq_ix2 j⟩
  obtain ⟨o, cc, rfl⟩ : ∃ (o : Fin 32) (cc : Fin 16), q = ⟨o.val * 16 + cc.val, by omega⟩ :=
    ⟨⟨q.val / 16, by omega⟩, ⟨q.val % 16, by omega⟩, Fin.ext (by show q.val = q.val / 16 * 16 + q.val % 16; omega)⟩
  show k0_pay1 (F := Ideal) (iblk m c 0 t) (iblk m c 2 t) (iblk m c 1 t) (ix2 p ⟨o.val * 16 + cc.val, by omega⟩)
    = R2 m c (((cfg0.win 3).blk t).view.emb (ix2 p ⟨o.val * 16 + cc.val, by omega⟩))
  rw [emb3]
  refine (block_value (m ((c : Thread nD τ).loc main_arg0)) (m ((c : Thread nD τ).loc main_arg1))
    (m ((c : Thread nD τ).loc main_arg2)) t.val (t_lt t) (iblk m c 0 t) (iblk m c 1 t) (iblk m c 2 t) ?_ ?_ ?_ p o cc).trans ?_
  · intro p k cc
    show V m c main_v0 (((cfg0.win 0).blk t).view.emb (ix2 p ⟨k.val * 16 + cc.val, by omega⟩)) = _
    rw [emb0]
    exact HostValue.v0_apply m c _ k cc
  · intro p z
    show V m c main_v6 (((cfg0.win 1).blk t).view.emb (ix2 p z)) = _
    rw [emb1]
    exact HostValue.v6_apply m c _ z
  · intro k z o
    show V m c main_v16 (((cfg0.win 2).blk t).view.emb (ix2 k ⟨z.val * 32 + o.val, by omega⟩)) = _
    rw [emb2]
    exact HostValue.v16_apply m c k z o
  · have e1 : (⟨(o.val * 16 + cc.val) / 16, by omega⟩ : Fin 32) = o := Fin.ext (by show (o.val * 16 + cc.val) / 16 = o.val; omega)
    have e2 : (⟨(o.val * 16 + cc.val) % 16, by omega⟩ : Fin 16) = cc := Fin.ext (by show (o.val * 16 + cc.val) % 16 = cc.val; omega)
    show _ = Cert.Spec.K _ _ _ ⟨t.val * 128 + p.val, by have := t_lt t; omega⟩ ⟨(o.val * 16 + cc.val) / 16, by omega⟩ ⟨(o.val * 16 + cc.val) % 16, by omega⟩
    rw [e1, e2]

/-- An index of the result is in point `t`'s block iff each coordinate is in the block's range on its axis. -/
theorem mem_blk3 (t : Fin cfg0.N) (i : S8192x512.Idx) :
    i ∈ ((cfg0.win 3).blk t).view.set ↔ ∀ a : Fin 2, win0_3.index t a * S128x512.size a ≤ (i a).val ∧ (i a).val < win0_3.index t a * S128x512.size a + S128x512.size a := by
  show i ∈ ((View.whole main_v17).slice (win0_3.rect t)).set ↔ _
  rw [View.set_slice_whole, Rect.mem_set_unit]
  exact Iff.rfl

/-- Every index of the result is in some point's block: row `r` is in block `r / 128`. -/
theorem cover3 (i : S8192x512.Idx) : ∃ t : Fin cfg0.N, (cfg0.win 3).flush t = true ∧ i ∈ ((cfg0.win 3).blk t).view.set := by
  have hi0 : (i 0).val < 8192 := idx2_lt0 i
  have hi1 : (i 1).val < 512 := idx2_lt1 i
  have hN : (i 0).val / 128 < cfg0.N := by rw [show cfg0.N = 64 from N_0]; omega
  refine ⟨⟨(i 0).val / 128, hN⟩, flush0_3 _, ?_⟩
  rw [mem_blk3]
  obtain ⟨-, -, -, -, -, -, e0, e1⟩ := idx_facts ⟨(i 0).val / 128, hN⟩
  intro a
  match a with
  | ⟨0, _⟩ =>
    show win0_3.index ⟨(i 0).val / 128, hN⟩ (0 : Fin 2) * 128 ≤ (i 0).val ∧ (i 0).val < win0_3.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_3.index ⟨(i 0).val / 128, hN⟩ (1 : Fin 2) * 512 ≤ (i 1).val ∧ (i 1).val < win0_3.index ⟨(i 0).val / 128, hN⟩ (1 : Fin 2) * 512 + 512
    rw [e1]; omega

/-- THE RESULT ARRAY of the pallas_call after the run. -/
theorem final3 (c : Dev nD) : (dats m 0 c).arrAt 3 cfg0.N = R2 m c :=
  (dats m 0 c).arrAt_eq_of_cover 3 (R2 m c) (fun t _ => flushed3_eq m c t) cover3

/-- The program's result: the [8192, 512] array read as [8192, 32, 16]. -/
theorem tail_eq (c : Dev nD) :
    (Pipeline.afterTail₀ cfgs (dats m) 0 (V0 m) [hostOps1] c main_v18 : S8192x32x16.Idx → EReal)
      = shapeCast S8192x32x16 (R2 m c) shapeCasts_S8192x512_S8192x32x16 := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v17)
      = R2 m c :=
    (Pipeline.withArrays_arr spec0 launch0.win.arr_inj c _ _ 3).trans (final3 m c)
  rw [hw]
  rfl

/-- The reshaped result at `(n, o, c)` is the kernel's formula there. -/
theorem result_eq (c : Dev nD) :
    shapeCast S8192x32x16 (R2 m c) shapeCasts_S8192x512_S8192x32x16
      = fun i : S8192x32x16.Idx => Cert.Spec.K (m ((c : Thread nD τ).loc main_arg0)) (m ((c : Thread nD τ).loc main_arg1))
          (m ((c : Thread nD τ).loc main_arg2)) (i 0) (i 1) (i 2) := by
  funext i
  obtain ⟨n, o, cc, rfl⟩ : ∃ (n : Fin 8192) (o : Fin 32) (cc : Fin 16), i = ix3 n o cc := ⟨i 0, i 1, i 2, eq_ix3 i⟩
  refine (shapeCast_apply (s := S8192x512) (t := S8192x32x16) _ _ (ix3 n o cc) (ix2 n ⟨o.val * 16 + cc.val, by omega⟩) (by
    rw [Shape.rowMajor_val_two, Shape.rowMajor_val_three]
    show n.val * 512 + (o.val * 16 + cc.val) = (n.val * 32 + o.val) * 16 + cc.val
    omega)).trans ?_
  have e1 : (⟨(o.val * 16 + cc.val) / 16, by omega⟩ : Fin 32) = o := Fin.ext (by show (o.val * 16 + cc.val) / 16 = o.val; omega)
  have e2 : (⟨(o.val * 16 + cc.val) % 16, by omega⟩ : Fin 16) = cc := Fin.ext (by show (o.val * 16 + cc.val) % 16 = cc.val; omega)
  show Cert.Spec.K _ _ _ n ⟨(o.val * 16 + cc.val) / 16, by omega⟩ ⟨(o.val * 16 + cc.val) % 16, by omega⟩ = Cert.Spec.K _ _ _ n o cc
  rw [e1, e2]

/-- THE RUN, READ: every weakly fair execution of the kernel's program terminates with its result holding the
    kernel's formula of the arguments, index by index, and the arguments unchanged. -/
theorem run : θ_run defs (onTc (τ := τ) (main (F := Ideal))) ⟨m, fun _ => 0, ρ⟩ fun r => ∀ c : Dev nD,
      r.2.mem ((c.tc : Thread nD τ).loc main_v18)
        = (fun i : S8192x32x16.Idx => Cert.Spec.K (m ((c.tc : Thread nD τ).loc main_arg0)) (m ((c.tc : Thread nD τ).loc main_arg1))
            (m ((c.tc : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v18 (Pipeline.mem_restRefs_of main_v18 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.lean ====
/-
  The kernel computes, for each of 8192 atoms, a [32, 16] block from the atom's [256, 16] features and a [256, 32]
  coefficient matrix chosen by the atom's atomic number. The reference gathers the matrix from an 84-row table by the
  atomic number and contracts it with the features. The kernel instead contracts the features with the rows of the
  five supported elements 1, 6, 7, 8, 9 at once (one [2048, 256] × [256, 160] product per block of 128 atoms) and
  combines the five candidates with one-hot weights obtained by comparing the atomic number with the five numbers.

  The two agree on the stated domain: every atomic number is non-negative (as an index into the table it is not
  meant to wrap around), and the table rows of unsupported elements are zero (the reference's own contract: such
  atoms output zeros). Then, on the extended reals and index by index,
      Σ_z [a = cat z] · (Σ_k feat[n, k, c] · rc[cat z, k, o])  =  Σ_k rc[row(a), k, o] · feat[n, k, c] :
  for a supported number exactly one weight is one and the products commute; for any other number all weights are
  zero and the gathered row is a zero row (a number past the table is clamped to its last row, which is zero too).
  Only the laws of zero and commutativity are used, so the finiteness of the inputs is never needed.

  The modules: `Spec` (the two formulas and the law), `PreFacts` (what the precondition says, element by element),
  `LibGatherRows` (a row gather of a rank-3 table read at an index), `RefValue` (the reference is `G`),
  `KernelHost` (the arrays the region finds, read at an index), `Payload` (the body's arithmetic at an index),
  `KernelValue` (blocks to the whole array, the final reshape, the run).
-/
import proofs.«431276_j7043746365490_3_alg».proof.Defs
import proofs.«431276_j7043746365490_3_alg».proof.Proof.Gen.Kernel
import proofs.«431276_j7043746365490_3_alg».proof.Proof.Gen.Kernel.Skeleton
import proofs.«431276_j7043746365490_3_alg».proof.Proof.Gen.Kernel.Launch
import proofs.«431276_j7043746365490_3_alg».proof.Proof.Gen.Kernel.Points
import proofs.«431276_j7043746365490_3_alg».proof.Proof.Gen.Kernel.Frame
import proofs.«431276_j7043746365490_3_alg».proof.Proof.Gen.KernelIdeal
import proofs.«431276_j7043746365490_3_alg».proof.Proof.Gen.KernelIdeal.Skeleton
import proofs.«431276_j7043746365490_3_alg».proof.Proof.Gen.KernelIdeal.Launch
import proofs.«431276_j7043746365490_3_alg».proof.Proof.Gen.KernelIdeal.Points
import proofs.«431276_j7043746365490_3_alg».proof.Proof.Gen.KernelIdeal.Frame
import proofs.«431276_j7043746365490_3_alg».proof.Proof.Gen.ReferenceIdeal
import proofs.«431276_j7043746365490_3_alg».proof.Proof.Gen.Pre_finite_inputs
import proofs.«431276_j7043746365490_3_alg».proof.Proof.Gen.ReferenceIdeal.Run
import proofs.«431276_j7043746365490_3_alg».proof.Proof.Gen.ReferenceIdeal.Read
import proofs.«431276_j7043746365490_3_alg».proof.Proof.Spec
import proofs.«431276_j7043746365490_3_alg».proof.Proof.PreFacts
import proofs.«431276_j7043746365490_3_alg».proof.Proof.RefValue
import proofs.«431276_j7043746365490_3_alg».proof.Proof.KernelValue
import Idealize.ShloMosaic.Adequacy
import Idealize.ShloMosaic.Init

noncomputable section

namespace Cert.Proof

open Idealize.ShloMosaic Idealize.SL.Sem

/-- The word-level kernel runs, nothing faults, the arguments end unchanged. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's result holds `K` of the arguments, the reference's holds `G` of the same arguments, and under the
    precondition (non-negative numbers, zero rows for the unsupported elements) `K = G` index by index. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1, (hagree c).2.2]
  funext i
  exact (Cert.Spec.K_eq_G _ _ _
    (fun n => Cert.PreFacts.nonneg_of_pre _ _ _ (hpre c) n)
    (fun r k o hr => Cert.PreFacts.zero_row_of_pre _ _ _ (hpre c) r k o hr) (i 0) (i 1) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
